-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1000x512 : Shape := ⟨2, ![1000, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S16384x512 .f32) (main_arg1 : FVec F S1000x512 .f32) (main_arg2 : FVec F S1000x512 .f32) (main_arg3 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S1000x512 .f32 := Host.absf main_arg2
  let main_cst_2 : FVec F S_ .f32 := constant S_ .f32 0x7F800000#32
  let main_v10 : FVec F S1000x512 .f32 := broadcastInDim S1000x512 ![] bcast_S_S1000x512 main_cst_2
  let main_v11 : IVec S1000x512 1 := cmpf .olt main_v9 main_v10
  let main_c_3 : IVec S_ 1 := constantI S_ 1 1#1
  let main_v12 : IVec S_ 1 := (fun x v => Host.reduce IntOp.andi x v reducesTo_S1000x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S16384x512 : Shape := ⟨2, ![16384, 512]⟩
abbrev S1000x512 : Shape := ⟨2, ![1000, 512]⟩
abbrev S512 : Shape := ⟨1, ![512]⟩
abbrev S16384x1000 : Shape := ⟨2, ![16384, 1000]⟩
abbrev S1024x512 : Shape := ⟨2, ![1024, 512]⟩
abbrev S1024x1000 : Shape := ⟨2, ![1024, 1000]⟩
abbrev S1x512 : Shape := ⟨2, ![1, 512]⟩
abbrev S1024 : Shape := ⟨1, ![1024]⟩
abbrev S1024x1 : Shape := ⟨2, ![1024, 1]⟩
abbrev S1000 : Shape := ⟨1, ![1000]⟩
abbrev S1x1000 : Shape := ⟨2, ![1, 1000]⟩

abbrev nBuf : Space → Nat
  | .hbm => 5
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000x512, .f32⟩
  | .hbm, ⟨3, _⟩ => ⟨S512, .f32⟩
  | .hbm, ⟨4, _⟩ => ⟨S16384x1000, .f32⟩
  | .local _ .vmem, ⟨0, _⟩ => ⟨S1024x512, .f32⟩
  | .local _ .vmem, ⟨1, _⟩ => ⟨S1024x512, .f32⟩
  | .local _ .vmem, ⟨2, _⟩ => ⟨S1000x512, .f32⟩
  | .local _ .vmem, ⟨3, _⟩ => ⟨S512, .f32⟩
  | .local _ .vmem, ⟨4, _⟩ => ⟨S1024x1000, .f32⟩
  | .local _ .vmem, ⟨5, _⟩ => ⟨S1024x1000, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512_S512_0 : ∀ a, (![0] : Fin 1 → Nat) a + S512.size a ≤ S512.size a
  h_S512 : 0 < S512.numel
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  broadcasts_S1x512_S1024x512 : S1x512.Broadcasts S1024x512
  inb_S1000x512_S1000x512_0_0 : ∀ a, (![0, 0] : Fin 2 → Nat) a + S1000x512.size a ≤ S1000x512.size a
  h_S1000x512 : 0 < S1000x512.numel
  broadcasts_S1x512_S1000x512 : S1x512.Broadcasts S1000x512
  reduces_S1024x512_S1024 : S1024x512.Reduces [1] S1024
  shapeCasts_S1024_S1024x1 : S1024.ShapeCasts S1024x1
  reduces_S1000x512_S1000 : S1000x512.Reduces [1] S1000
  bitsLt_bf16_f32 : FTy.bits .bf16 < FTy.bits .f32
  broadcasts_S1024x1_S1024x1000 : S1024x1.Broadcasts S1024x1000
  shapeCasts_S1000_S1x1000 : S1000.ShapeCasts S1x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x512_S1000x512_S1024x1000_1_1_0_0_n_n_wf : DotDims.WF S1024x512 S1000x512 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)

variable [Facts₀]

def dot_S1024x512_S1000x512_S1024x1000_1_1_0_0_n_n : DotDims S1024x512 S1000x512 S1024x1000 where
  lhsContracting := [1]
  rhsContracting := [1]
  lhsNonContracting := [0]
  rhsNonContracting := [0]
  lhsBatch := []
  rhsBatch := []
  wf := dot_S1024x512_S1000x512_S1024x1000_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S1000x512 : Shape := ⟨2, ![1000, 512]⟩
abbrev S512 : Shape := ⟨1, ![512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S1000 : Shape := ⟨1, ![1000]⟩
abbrev S16384x1000 : Shape := ⟨2, ![16384, 1000]⟩
abbrev S1x1000 : Shape := ⟨2, ![1, 1000]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1000x512, .f32⟩
  | .hbm, ⟨2, _⟩ => ⟨S1000x512, .f32⟩
  | .hbm, ⟨3, _⟩ => ⟨S512, .f32⟩
  | .hbm, ⟨4, _⟩ => ⟨S1x512, .f32⟩
  | .hbm, ⟨5, _⟩ => ⟨S16384x512, .f32⟩
  | .hbm, ⟨6, _⟩ => ⟨S16384x512, .f32⟩
  | .hbm, ⟨7, _⟩ => ⟨S1x512, .f32⟩
  | .hbm, ⟨8, _⟩ => ⟨S1000x512, .f32⟩
  | .hbm, ⟨9, _⟩ => ⟨S1000x512, .f32⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S1000x512, .f32⟩
  | .hbm, ⟨15, _⟩ => ⟨S_, .f32⟩
  | .hbm, ⟨16, _⟩ => ⟨S1000, .f32⟩
  | .hbm, ⟨17, _⟩ => ⟨S16384x1000, .f32⟩
  | .hbm, ⟨18, _⟩ => ⟨S_, .f32⟩
  | .hbm, ⟨19, _⟩ => ⟨S16384x1000, .f32⟩
  | .hbm, ⟨20, _⟩ => ⟨S16384x1000, .f32⟩
  | .hbm, ⟨21, _⟩ => ⟨S16384x1000, .f32⟩
  | .hbm, ⟨22, _⟩ => ⟨S16384x1000, .f32⟩
  | .hbm, ⟨23, _⟩ => ⟨S1x1000, .f32⟩
  | .hbm, ⟨24, _⟩ => ⟨S16384x1000, .f32⟩
  | .hbm, ⟨25, _⟩ => ⟨S16384x1000, .f32⟩
  | .hbm, ⟨26, _⟩ => ⟨S_, .f32⟩
  | .hbm, ⟨27, _⟩ => ⟨S16384x1000, .f32⟩
  | .hbm, ⟨28, _⟩ => ⟨S16384x1000, .f32⟩
  | .hbm, ⟨29, _⟩ => ⟨S16384x1000, .f32⟩
  | .hbm, ⟨30, _⟩ => ⟨S16384x1000, .f32⟩
  | .hbm, ⟨31, _⟩ => ⟨S_, .f32⟩
  | .hbm, ⟨32, _⟩ => ⟨S16384x1000, .f32⟩
  | .hbm, ⟨33, _⟩ => ⟨S16384x1000, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S1x512_S1000x512_0_1 : S1x512.BroadcastsInDim S1000x512 (![0, 1] : Fin 2 → Fin S1000x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1000x512_S1000_d1 : S1000x512.ReducesTo [1] S1000
  bcast_S_S16384x1000 : S_.BroadcastsInDim S16384x1000 (![] : Fin 0 → Fin S16384x1000.rank)
  bcast_S16384x1_S16384x1000_0_1 : S16384x1.BroadcastsInDim S16384x1000 (![0, 1] : Fin 2 → Fin S16384x1000.rank)
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  dot_S16384x512_S1000x512_S16384x1000_1_1_0_0_n_n_wf : DotDims.WF S16384x512 S1000x512 S16384x1000 [1] [1] [0] [0] [] []

variable [Facts₀]

def dot_S16384x512_S1000x512_S16384x1000_1_1_0_0_n_n : DotDims S16384x512 S1000x512 S16384x1000 where
  lhsContracting := [1]
  rhsContracting := [1]
  lhsNonContracting := [0]
  rhsNonContracting := [0]
  lhsBatch := []
  rhsBatch := []
  wf := dot_S16384x512_S1000x512_S16384x1000_1_1_0_0_n_n_wf

class Facts : Prop extends Facts₀ where

variable [Facts]
-- ==== Proof.Dist.lean ====
/-
  The mathematics both programs compute, as one function of the argument arrays.

  Given points x (rows of X), centroids c (rows of C) and a temperature row T, every entry is first scaled,
  x'[b,d] = x[b,d] / T[d] and c'[k,d] = c[k,d] / T[d]. The squared distance between x'[b] and c'[k] is spelt by
  its expansion  ‖x'[b]‖² − 2·⟨x'[b], c'[k]⟩ + ‖c'[k]‖², clamped below at zero, and the result entry is minus
  half its square root. Everything is read on the extended reals; no cancellation is used, so the expansion
  is never recombined, and the sums are taken over the 512 feature coordinates.

  The entry depends on X only through row b and on C only through row k: that is why a kernel that
  sees 1024 rows of X at a time computes the same entries (`negHalfDist_congr`).

  The one difference of spelling between the two programs is the last step: "negate, then divide by two"
  against "subtract from zero, then multiply by one half"; `neg_div_two` says these agree on every
  extended real.
-/
import Idealize.ShloMosaic.Lib.ValueIdx
import Idealize.ShloMosaic.PureOps.Ideal.Laws

noncomputable section

namespace Cert.Dist

open Idealize.ShloMosaic Idealize.ShloMosaic.ValueIdx

/-- Entry (r, d) of a matrix with 512 columns, divided by entry d of the temperature row. -/
def scaled {n : Nat} (a : (⟨2, ![n, 512]⟩ : Shape).Idx → EReal) (T : (⟨1, ![512]⟩ : Shape).Idx → EReal) (r : Fin n) (d : Fin 512) : EReal :=
  Ideal.div (a (ix2 r d)) (T (ix1 d))

/-- The squared norm of scaled row r. -/
def sqNorm {n : Nat} (a : (⟨2, ![n, 512]⟩ : Shape).Idx → EReal) (T : (⟨1, ![512]⟩ : Shape).Idx → EReal) (r : Fin n) : EReal :=
  ∑ d : Fin 512, scaled a T r d * scaled a T r d

/-- The inner product of scaled row b of x with scaled row k of c. -/
def inner {n k : Nat} (x : (⟨2, ![n, 512]⟩ : Shape).Idx → EReal) (c : (⟨2, ![k, 512]⟩ : Shape).Idx → EReal)
    (T : (⟨1, ![512]⟩ : Shape).Idx → EReal) (b : Fin n) (j : Fin k) : EReal :=
  ∑ d : Fin 512, scaled x T b d * scaled c T j d

/-- The expanded squared distance, clamped at zero. -/
def sqDist {n k : Nat} (x : (⟨2, ![n, 512]⟩ : Shape).Idx → EReal) (c : (⟨2, ![k, 512]⟩ : Shape).Idx → EReal)
    (T : (⟨1, ![512]⟩ : Shape).Idx → EReal) (b : Fin n) (j : Fin k) : EReal :=
  max (sqNorm x T b - Ideal.ofBits .f32 0x40000000#32 * inner x c T b j + sqNorm c T j) (Ideal.ofBits .f32 0x00000000#32)

/-- Minus half the distance, in the kernel's spelling: zero minus the root, times one half. -/
def negHalfDist {n k : Nat} (x : (⟨2, ![n, 512]⟩ : Shape).Idx → EReal) (c : (⟨2, ![k, 512]⟩ : Shape).Idx → EReal)
    (T : (⟨1, ![512]⟩ : Shape).Idx → EReal) (b : Fin n) (j : Fin k) : EReal :=
  (Ideal.ofBits .f32 0x00000000#32 - Ideal.sqrt (sqDist x c T b j)) * Ideal.ofBits .f32 0x3F000000#32

/-- The whole result: entry (b, k) is minus half the distance between point b and centroid k. -/
def result (x : (⟨2, ![16384, 512]⟩ : Shape).Idx → EReal) (c : (⟨2, ![1000, 512]⟩ : Shape).Idx → EReal)
    (T : (⟨1, ![512]⟩ : Shape).Idx → EReal) : (⟨2, ![16384, 1000]⟩ : Shape).Idx → EReal :=
  fun i => negHalfDist x c T (i 0) (i 1)

/-- An entry depends on the points only through its own row: two matrices that agree on one row each
    give the same entry there. -/
theorem negHalfDist_congr {n n' k : Nat} (x : (⟨2, ![n, 512]⟩ : Shape).Idx → EReal) (x' : (⟨2, ![n', 512]⟩ : Shape).Idx → EReal)
    (c : (⟨2, ![k, 512]⟩ : Shape).Idx → EReal) (T : (⟨1, ![512]⟩ : Shape).Idx → EReal) (b : Fin n) (b' : Fin n') (j : Fin k)
    (h : ∀ d : Fin 512, x (ix2 b d) = x' (ix2 b' d)) : negHalfDist x c T b j = negHalfDist x' c T b' j := by
  have hs : ∀ d, scaled x T b d = scaled x' T b' d := fun d => by unfold scaled; rw [h d]
  unfold negHalfDist sqDist sqNorm inner
  simp only [hs]

/-! ## The three constants, and the last step's two spellings -/

theorem ofBits_zero : Ideal.ofBits .f32 0x00000000#32 = 0 := Ideal.ofBits_zero_f32

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- Negating and dividing by two is subtracting from zero and multiplying by one half, at every extended real
    (the quotient by a nonzero real is the product with its inverse; zero minus s is −s). -/
theorem neg_div_two (s : EReal) :
    Ideal.div (-s) (Ideal.ofBits .f32 0x40000000#32) = (Ideal.ofBits .f32 0x00000000#32 - s) * Ideal.ofBits .f32 0x3F000000#32 := by
  rw [ofBits_two, ofBits_half, ofBits_zero, Ideal.div_coe (by norm_num : (2 : ℝ) ≠ 0), sub_eq_add_neg, zero_add]

/-- The reference's spelling of an entry — each sum started from the zero word, the last step "negate, divide by two" —
    is the kernel's: a sum started from zero is the sum, and the last steps agree by `neg_div_two`. -/
theorem host_spelling (a p q : EReal) :
    Ideal.div (-(Ideal.sqrt (max ((Ideal.ofBits .f32 0x00000000#32 + a) - Ideal.ofBits .f32 0x40000000#32 * p
        + (Ideal.ofBits .f32 0x00000000#32 + q)) (Ideal.ofBits .f32 0x00000000#32)))) (Ideal.ofBits .f32 0x40000000#32)
      = (Ideal.ofBits .f32 0x00000000#32 - Ideal.sqrt (max (a - Ideal.ofBits .f32 0x40000000#32 * p + q) (Ideal.ofBits .f32 0x00000000#32)))
        * Ideal.ofBits .f32 0x3F000000#32 := by
  rw [neg_div_two, ofBits_zero, zero_add, zero_add]

end Cert.Dist

end
-- ==== Proof.RefIsDist.lean ====
/-
  The reference program computes `Dist.result`: its thirty host operations, read one at a time at an index,
  are the scaling of both matrices by the temperature row, the two squared norms and the inner product as
  sums over the 512 feature coordinates, the expansion of the squared distance, the clamp, the root, and
  "negate, divide by two".
-/
import proofs.«107545_j83270825935352_1_alg».proof.Proof.Gen.ReferenceIdeal.Read
import proofs.«107545_j83270825935352_1_alg».proof.Proof.Dist

noncomputable section

namespace Cert.ReferenceIdeal.RefValue

open Cert.ReferenceIdeal Cert.ReferenceIdeal.Gen Cert.ReferenceIdeal.Read
open Idealize.ShloMosaic Idealize.ShloMosaic.ValueIdx

variable (x0 : FVec Ideal S16384x512 .f32) (x1 : FVec Ideal S1000x512 .f32) (x3 : FVec Ideal S512 .f32)

/-- The scaled points, entry by entry: the temperature row is broadcast down the rows. -/
theorem scaled_points (b : Fin 16384) (d : Fin 512) : val_main_v2 (F := Ideal) x0 x3 (ix2 b d) = Cert.Dist.scaled x0 x3 b d := by
  rw [val_main_v2_apply, val_main_v1_apply, val_main_v0_apply]
  have e : idx_main_v0 (idx_main_v1 (ix2 b d)) = ix1 d := funext fun a => Fin.ext (by match a with | ⟨0, _⟩ => rfl)
  rw [e]
  rfl

/-- The scaled centroids likewise. -/
theorem scaled_centroids (k : Fin 1000) (d : Fin 512) : val_main_v5 (F := Ideal) x1 x3 (ix2 k d) = Cert.Dist.scaled x1 x3 k d := by
  rw [val_main_v5_apply, val_main_v4_apply, val_main_v3_apply]
  have e : idx_main_v3 (idx_main_v4 (ix2 k d)) = ix1 d := funext fun a => Fin.ext (by match a with | ⟨0, _⟩ => rfl)
  rw [e]
  rfl

/-- The row sums of the squared scaled points: the zero word plus the squared norm. -/
theorem sq_points (b : Fin 16384) :
    val_main_v7 (F := Ideal) x0 x3 (ix1 b) = Ideal.ofBits .f32 0x00000000#32 + Cert.Dist.sqNorm x0 x3 b := by
  rw [val_main_v7_apply]
  refine congrArg (_ + ·) (Finset.sum_congr rfl fun d _ => ?_)
  have e : idx_main_v7 (ix1 b) d = ix2 b d := funext fun a => Fin.ext (by match a with | ⟨0, _⟩ => rfl | ⟨1, _⟩ => rfl)
  rw [e, val_main_v6_apply, scaled_points]
  rfl

/-- The row sums of the squared scaled centroids. -/
theorem sq_centroids (k : Fin 1000) :
    val_main_v10 (F := Ideal) x1 x3 (ix1 k) = Ideal.ofBits .f32 0x00000000#32 + Cert.Dist.sqNorm x1 x3 k := by
  rw [val_main_v10_apply]
  refine congrArg (_ + ·) (Finset.sum_congr rfl fun d _ => ?_)
  have e : idx_main_v10 (ix1 k) d = ix2 k d := funext fun a => Fin.ext (by match a with | ⟨0, _⟩ => rfl | ⟨1, _⟩ => rfl)
  rw [e, val_main_v9_apply, scaled_centroids]
  rfl

/-- The product of the scaled points with the transposed scaled centroids: the inner products. -/
theorem cross (b : Fin 16384) (k : Fin 1000) :
    val_main_v11 (F := Ideal) x0 x1 x3 (ix2 b k) = Cert.Dist.inner x0 x1 x3 b k := by
  rw [val_main_v11_apply]
  refine Finset.sum_congr rfl fun d _ => ?_
  have el : lidx_main_v11 (ix2 b k) d = ix2 b d := funext fun a => Fin.ext (by match a with | ⟨0, _⟩ => rfl | ⟨1, _⟩ => rfl)
  have er : ridx_main_v11 (ix2 b k) d = ix2 k d := funext fun a => Fin.ext (by match a with | ⟨0, _⟩ => rfl | ⟨1, _⟩ => rfl)
  rw [el, er, scaled_points, scaled_centroids]

/-- The reference's result is `Dist.result` of its arguments. -/
theorem result_eq : val_main_v24 (F := Ideal) x0 x1 x3 = Cert.Dist.result x0 x1 x3 := by
  funext i
  obtain ⟨b, k, rfl⟩ : ∃ (b : Fin 16384) (k : Fin 1000), i = ix2 b k := ⟨i 0, i 1, eq_ix2 i⟩
  rw [val_main_v24_apply, val_main_v22_apply, val_main_v21_apply, val_main_v20_apply, val_main_v18_apply, val_main_v15_apply,
    val_main_v14_apply, val_main_v8_apply, val_main_v13_apply, val_main_v12_apply, val_main_cst_1_apply, val_main_v17_apply,
    val_main_v16_apply, val_main_v19_apply, val_main_cst_2_apply, val_main_v23_apply, val_main_cst_3_apply]
  have e8 : idx_main_v8 (idx_main_v14 (ix2 b k)) = ix1 b := funext fun a => Fin.ext (by match a with | ⟨0, _⟩ => rfl)
  have e16 : idx_main_v16 (idx_main_v17 (ix2 b k)) = ix1 k := funext fun a => Fin.ext (by match a with | ⟨0, _⟩ => rfl)
  rw [e8, e16, sq_points, sq_centroids, cross]
  exact Cert.Dist.host_spelling _ _ _

end Cert.ReferenceIdeal.RefValue

end
-- ==== Proof.Body.lean ====
/-
  The kernel body's stored value, entry by entry.

  At one grid point the body sees a block of 1024 rows of the points, the whole matrix of centroids and
  the temperature row. It scales both matrices by the temperature row, takes the row sums of the squares
  (a lane reduction from the zero word), multiplies the scaled block by the transposed scaled centroids
  on the matrix unit into a zero accumulator (the change of format before it is the identity on extended
  reals), and finishes each entry as  (0 − √max(‖x'‖² − 2·⟨x', c'⟩ + ‖c'‖², 0)) · ½.
  Read at entry (p, q) this is `Dist.negHalfDist` of the block, the centroids and the temperature row.
-/
import proofs.«107545_j83270825935352_1_alg».proof.Proof.Gen.KernelIdeal.Skeleton
import proofs.«107545_j83270825935352_1_alg».proof.Proof.Dist
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

/-! ## Layout: a row over many rows, a column over many columns -/

/-- The temperature row, cast to one row and broadcast down n rows, read at (r, d) is its entry d. -/
theorem temp_at {n : Nat} (T : FVec Ideal ⟨1, ![512]⟩ .f32) (hc : (⟨1, ![512]⟩ : Shape).ShapeCasts ⟨2, ![1, 512]⟩)
    (hb : (⟨2, ![1, 512]⟩ : Shape).Broadcasts ⟨2, ![n, 512]⟩) (r : Fin n) (d : Fin 512) :
    broadcastTo ⟨2, ![n, 512]⟩ (shapeCast ⟨2, ![1, 512]⟩ T hc) hb (ix2 r d) = T (ix1 d) :=
  (broadcastTo_1b_ab_apply _ hb r d).trans (shapeCast_a_1a_apply T hc 0 d)

/-- A vector of n row values, cast to a column and broadcast across m columns, read at (r, j) is its entry r. -/
theorem column_at {n m : Nat} (hm : m ≠ 1) (v : (⟨1, ![n]⟩ : Shape).Idx → EReal) (hc : (⟨1, ![n]⟩ : Shape).ShapeCasts ⟨2, ![n, 1]⟩)
    (hb : (⟨2, ![n, 1]⟩ : Shape).Broadcasts ⟨2, ![n, m]⟩) (r : Fin n) (j : Fin m) :
    broadcastTo ⟨2, ![n, m]⟩ (shapeCast ⟨2, ![n, 1]⟩ v hc) hb (ix2 r j) = v (ix1 r) := by
  refine (broadcastTo_apply _ hb (ix2 r j) (ix2 r (0 : Fin 1)) fun ax => ?_).trans ?_
  · match ax with
    | ⟨0, _⟩ =>
      show r.val = if n = 1 then 0 else r.val
      split
      · have := r.isLt; omega
      · rfl
    | ⟨1, _⟩ => rfl
  · refine shapeCast_apply v hc _ _ ?_
    rw [Shape.rowMajor_val_two, Shape.rowMajor_val_one]
    show r.val = r.val * 1 + 0
    omega

/-- A vector of m column values, cast to one row and broadcast down n rows, read at (r, j) is its entry j. -/
theorem row_at {n m : Nat} (v : (⟨1, ![m]⟩ : Shape).Idx → EReal) (hc : (⟨1, ![m]⟩ : Shape).ShapeCasts ⟨2, ![1, m]⟩)
    (hb : (⟨2, ![1, m]⟩ : Shape).Broadcasts ⟨2, ![n, m]⟩) (r : Fin n) (j : Fin m) :
    broadcastTo ⟨2, ![n, m]⟩ (shapeCast ⟨2, ![1, m]⟩ v hc) hb (ix2 r j) = v (ix1 j) :=
  (broadcastTo_1b_ab_apply _ hb r j).trans (shapeCast_a_1a_apply v hc 0 j)

/-! ## Scaling and the squared norms -/

/-- A matrix divided by the broadcast temperature row, read at (r, d). -/
theorem scaled_at {n : Nat} (a : FVec Ideal ⟨2, ![n, 512]⟩ .f32) (T : FVec Ideal ⟨1, ![512]⟩ .f32)
    (hc : (⟨1, ![512]⟩ : Shape).ShapeCasts ⟨2, ![1, 512]⟩) (hb : (⟨2, ![1, 512]⟩ : Shape).Broadcasts ⟨2, ![n, 512]⟩) (r : Fin n) (d : Fin 512) :
    divf a (broadcastTo ⟨2, ![n, 512]⟩ (shapeCast ⟨2, ![1, 512]⟩ T hc) hb) (ix2 r d) = Cert.Dist.scaled a T r d :=
  congrArg (Ideal.div (a (ix2 r d))) (temp_at T hc hb r d)

/-- The lane sum of the squares of the scaled matrix, from the zero word, read at row r: the squared norm. -/
theorem sqNorm_at {n : Nat} (a : FVec Ideal ⟨2, ![n, 512]⟩ .f32) (T : FVec Ideal ⟨1, ![512]⟩ .f32)
    (hc : (⟨1, ![512]⟩ : Shape).ShapeCasts ⟨2, ![1, 512]⟩) (hb : (⟨2, ![1, 512]⟩ : Shape).Broadcasts ⟨2, ![n, 512]⟩)
    (hr : (⟨2, ![n, 512]⟩ : Shape).Reduces [1] ⟨1, ![n]⟩) (hφ : FKind.Formats .f32)
    (hacc : (0x00000000#32 : BitVec 32) = FKind.add.neutral .f32 hφ) (r : Fin n) :
    multiReduction .add [1] ⟨1, ![n]⟩
        (mulf (divf a (broadcastTo ⟨2, ![n, 512]⟩ (shapeCast ⟨2, ![1, 512]⟩ T hc) hb))
          (divf a (broadcastTo ⟨2, ![n, 512]⟩ (shapeCast ⟨2, ![1, 512]⟩ T hc) hb))) 0x00000000#32 hr hφ hacc (ix1 r)
      = Cert.Dist.sqNorm a T r := by
  refine (Ideal.multiReduction_add_single _ 0x00000000#32 hr hφ hacc (ix1 r)).trans ?_
  refine Finset.sum_congr rfl fun (d : Fin 512) _ => ?_
  have e : hr.lift (ix1 r) d = ix2 r d := funext fun c => Fin.ext (by match c with | ⟨0, _⟩ => rfl | ⟨1, _⟩ => rfl)
  rw [e]
  exact congrArg₂ (· * ·) (scaled_at a T hc hb r d) (scaled_at a T hc hb r d)

/-! ## The product on the matrix unit -/

theorem lhs_row (i : S1024x1000.Idx) (k : dot_S1024x512_S1000x512_S1024x1000_1_1_0_0_n_n.contr.Idx) :
    (dot_S1024x512_S1000x512_S1024x1000_1_1_0_0_n_n.lhsIdx i k 0).val = (i 0).val := by
  unfold DotDims.lhsIdx
  rw [dif_neg (show ¬(0 : Fin S1024x512.rank) ∈ dot_S1024x512_S1000x512_S1024x1000_1_1_0_0_n_n.lhsBatch by decide),
    dif_pos (show (0 : Fin S1024x512.rank) ∈ dot_S1024x512_S1000x512_S1024x1000_1_1_0_0_n_n.lhsNonContracting by decide)]
  rfl
theorem lhs_col (i : S1024x1000.Idx) (k : dot_S1024x512_S1000x512_S1024x1000_1_1_0_0_n_n.contr.Idx) :
    (dot_S1024x512_S1000x512_S1024x1000_1_1_0_0_n_n.lhsIdx i k 1).val = (k ⟨0, by decide⟩).val :=
  dot_S1024x512_S1000x512_S1024x1000_1_1_0_0_n_n.lhsIdx_val_of_single rfl i k
theorem rhs_row (i : S1024x1000.Idx) (k : dot_S1024x512_S1000x512_S1024x1000_1_1_0_0_n_n.contr.Idx) :
    (dot_S1024x512_S1000x512_S1024x1000_1_1_0_0_n_n.rhsIdx i k 0).val = (i 1).val := by
  unfold DotDims.rhsIdx
  rw [dif_neg (show ¬(0 : Fin S1000x512.rank) ∈ dot_S1024x512_S1000x512_S1024x1000_1_1_0_0_n_n.rhsBatch by decide),
    dif_pos (show (0 : Fin S1000x512.rank) ∈ dot_S1024x512_S1000x512_S1024x1000_1_1_0_0_n_n.rhsNonContracting by decide)]
  rfl
theorem rhs_col (i : S1024x1000.Idx) (k : dot_S1024x512_S1000x512_S1024x1000_1_1_0_0_n_n.contr.Idx) :
    (dot_S1024x512_S1000x512_S1024x1000_1_1_0_0_n_n.rhsIdx i k 1).val = (k ⟨0, by decide⟩).val :=
  dot_S1024x512_S1000x512_S1024x1000_1_1_0_0_n_n.rhsIdx_val_of_single rfl i k

/-- The product of a block of rows with the transposed centroids, into the zero accumulator, read at (p, q):
    the sum over the 512 shared coordinates of row p of the left factor times row q of the right. -/
theorem product_at {φ₁ φ₂ : FTy} (l : FVec Ideal S1024x512 φ₁) (r : FVec Ideal S1000x512 φ₂) (p : Fin 1024) (q : Fin 1000) :
    matmul dot_S1024x512_S1000x512_S1024x1000_1_1_0_0_n_n none l r (constant S1024x1000 .f32 0x00000000#32) (ix2 p q)
      = ∑ d : Fin 512, l (ix2 p d) * r (ix2 q d) := by
  simp only [matmul]
  rw [Ideal.matmul_constant_zero_apply,
    ← Equiv.sum_comp (contrEquiv1 dot_S1024x512_S1000x512_S1024x1000_1_1_0_0_n_n 512 rfl rfl).symm]
  refine Finset.sum_congr rfl fun d _ => ?_
  have hd := contrEquiv1_symm_val dot_S1024x512_S1000x512_S1024x1000_1_1_0_0_n_n 512 rfl rfl d
  have el : dot_S1024x512_S1000x512_S1024x1000_1_1_0_0_n_n.lhsIdx (ix2 p q)
      ((contrEquiv1 dot_S1024x512_S1000x512_S1024x1000_1_1_0_0_n_n 512 rfl rfl).symm d) = ix2 p d := funext fun a => Fin.ext (by
    match a with
    | ⟨0, _⟩ => exact lhs_row _ _
    | ⟨1, _⟩ => exact (lhs_col _ _).trans hd)
  have er : dot_S1024x512_S1000x512_S1024x1000_1_1_0_0_n_n.rhsIdx (ix2 p q)
      ((contrEquiv1 dot_S1024x512_S1000x512_S1024x1000_1_1_0_0_n_n 512 rfl rfl).symm d) = ix2 q d := funext fun a => Fin.ext (by
    match a with
    | ⟨0, _⟩ => exact rhs_row _ _
    | ⟨1, _⟩ => exact (rhs_col _ _).trans hd)
  rw [el, er]

/-! ## The stored value -/

theorem sqrt_apply {s : Shape} {φ : FTy} (a : FVec Ideal s φ) (i : s.Idx) : sqrt a i = Ideal.sqrt (a i) := rfl

/-- The value the body stores, read at (p, q): minus half the distance between row p of the block and
    centroid q, in the spelling of `Dist.negHalfDist`. -/
theorem stored_at (v0 : FVec Ideal S512 .f32) (v2 : FVec Ideal S1024x512 .f32) (v5 : FVec Ideal S1000x512 .f32)
    (p : Fin 1024) (q : Fin 1000) :
    k0_pay1 (F := Ideal) v0 v2 v5 (ix2 p q) = Cert.Dist.negHalfDist v2 v5 v0 p q := by
  have hxx := (column_at (by decide) _ shapeCasts_S1024_S1024x1 broadcasts_S1024x1_S1024x1000 p q).trans
    (sqNorm_at v2 v0 shapeCasts_S512_S1x512 broadcasts_S1x512_S1024x512 reduces_S1024x512_S1024 (.inl rfl) rfl p)
  have hcc := (row_at _ shapeCasts_S1000_S1x1000 broadcasts_S1x1000_S1024x1000 p q).trans
    (sqNorm_at v5 v0 shapeCasts_S512_S1x512 broadcasts_S1x512_S1000x512 reduces_S1000x512_S1000 (.inl rfl) rfl q)
  have hcr : matmul dot_S1024x512_S1000x512_S1024x1000_1_1_0_0_n_n none
        (truncf .bf16 (divf v2 (broadcastTo S1024x512 (shapeCast S1x512 v0 shapeCasts_S512_S1x512) broadcasts_S1x512_S1024x512)) bitsLt_bf16_f32)
        (truncf .bf16 (divf v5 (broadcastTo S1000x512 (shapeCast S1x512 v0 shapeCasts_S512_S1x512) broadcasts_S1x512_S1000x512)) bitsLt_bf16_f32)
        (constant S1024x1000 .f32 0x00000000#32) (ix2 p q) = Cert.Dist.inner v2 v5 v0 p q :=
    (product_at _ _ p q).trans (Finset.sum_congr rfl fun d _ =>
      congrArg₂ (· * ·) (scaled_at v2 v0 shapeCasts_S512_S1x512 broadcasts_S1x512_S1024x512 p d)
        (scaled_at v5 v0 shapeCasts_S512_S1x512 broadcasts_S1x512_S1000x512 q d))
  unfold Cert.Dist.negHalfDist Cert.Dist.sqDist
  rw [← hxx, ← hcc, ← hcr]
  rfl

end Cert.KernelIdeal.Body

end
-- ==== Proof.Whole.lean ====
/-
  From the blocks to the whole array.

  The grid has sixteen points. At point t the kernel is handed rows 1024·t … 1024·t + 1023 of the points, the
  whole matrix of centroids and the whole temperature row, and writes back rows 1024·t … 1024·t + 1023 of the
  result. Since an entry of `Dist.result` depends on the points only through its own row, what point t
  writes back is block t of `Dist.result` of the argument arrays; the sixteen blocks tile the 16384 rows, so after
  the run the result array is `Dist.result` of the arguments.
-/
import proofs.«107545_j83270825935352_1_alg».proof.Proof.Gen.KernelIdeal.Value
import proofs.«107545_j83270825935352_1_alg».proof.Proof.Body
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value
open Idealize.ShloMosaic.ValueIdx

variable (m : (ℓ : Loc nD τ sig) → Buf (Elt Ideal) ℓ) (ρ : Dev nD → PrngReg)

/-- The three argument arrays the kernel reads, on core c. -/
abbrev points (c : Dev nD) : FVec Ideal S16384x512 .f32 := m ((c : Thread nD τ).loc main_arg0)
abbrev centroids (c : Dev nD) : FVec Ideal S1000x512 .f32 := m ((c : Thread nD τ).loc main_arg1)
abbrev temperature (c : Dev nD) : FVec Ideal S512 .f32 := m ((c : Thread nD τ).loc main_arg3)

/-- What the result array holds after the run. -/
abbrev result (c : Dev nD) : FVec Ideal S16384x1000 .f32 :=
  Cert.Dist.result (points m c) (centroids m c) (temperature m c)

/-- The block indices at grid point t: the points' and the result's blocks move down with t, the centroids'
    and the temperature's stay at the origin (decided over the sixteen points). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The block of points at grid point t is rows 1024·t … of the points. -/
theorem points_block (c : Dev nD) (t : Fin cfg0.N) (p : Fin 1024) (d : Fin 512) (r : Fin 16384) (hr : r.val = t.val * 1024 + p.val) :
    (iblk m c 0 t : FVec Ideal S1024x512 .f32) (ix2 p d) = points m c (ix2 r d) := by
  obtain ⟨e0, e1, -⟩ := block_indices t
  unfold iblk
  rw [View.read_apply]
  show V m c main_arg0 _ = m ((c : Thread nD τ).loc main_arg0) _
  unfold V
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * d.val = d.val; rw [e1]; omega

/-- The block of centroids at every grid point is the whole matrix of centroids. -/
theorem centroids_block (c : Dev nD) (t : Fin cfg0.N) : (iblk m c 1 t : FVec Ideal S1000x512 .f32) = centroids m c := by
  obtain ⟨-, -, e0, e1, -⟩ := block_indices t
  funext y
  unfold iblk
  rw [View.read_apply]
  show V m c main_arg1 _ = m ((c : Thread nD τ).loc main_arg1) _
  unfold V
  congr 1
  funext a
  apply Fin.ext
  match a with
  | ⟨0, _⟩ => show win0_1.index t (0 : Fin 2) * 1000 + 1 * (y 0).val = (y 0).val; rw [e0]; omega
  | ⟨1, _⟩ => show win0_1.index t (1 : Fin 2) * 512 + 1 * (y 1).val = (y 1).val; rw [e1]; omega

/-- The block of the temperature row at every grid point is the whole row. -/
theorem temperature_block (c : Dev nD) (t : Fin cfg0.N) : (iblk m c 2 t : FVec Ideal S512 .f32) = temperature m c := by
  obtain ⟨-, -, -, -, e0, -⟩ := block_indices t
  funext y
  unfold iblk
  rw [View.read_apply]
  show V m c main_arg3 _ = m ((c : Thread nD τ).loc main_arg3) _
  unfold V
  congr 1
  funext a
  apply Fin.ext
  match a with
  | ⟨0, _⟩ => show win0_2.index t (0 : Fin 1) * 512 + 1 * (y 0).val = (y 0).val; rw [e0]; omega

/-- One stored entry against one entry of the result: over a block x0 that is rows 1024·n … of X, the whole
    centroids and the whole temperature row, the value stored at y is `Dist.result` at the index i that lies
    1024·n rows further down. -/
theorem entry_eq (X : FVec Ideal S16384x512 .f32) (C : FVec Ideal S1000x512 .f32) (T : FVec Ideal S512 .f32)
    (x0 : FVec Ideal S1024x512 .f32) (n : Nat)
    (h0 : ∀ (p : Fin 1024) (d : Fin 512) (r : Fin 16384), r.val = n * 1024 + p.val → x0 (ix2 p d) = X (ix2 r d))
    (y : S1024x1000.Idx) (i : S16384x1000.Idx) (hi0 : (i 0).val = n * 1024 + (y 0).val) (hi1 : (i 1).val = (y 1).val) :
    k0_pay1 (F := Ideal) T x0 C y = Cert.Dist.result X C T i := by
  obtain ⟨p, q, rfl⟩ : ∃ (p : Fin 1024) (q : Fin 1000), y = ix2 p q := ⟨y 0, y 1, eq_ix2 y⟩
  obtain ⟨r, k, rfl⟩ : ∃ (r : Fin 16384) (k : Fin 1000), i = ix2 r k := ⟨i 0, i 1, eq_ix2 i⟩
  have hk : k = q := Fin.ext hi1
  subst hk
  rw [Cert.KernelIdeal.Body.stored_at]
  exact Cert.Dist.negHalfDist_congr x0 X C T p r k fun d => h0 p d r hi0

theorem hz2 : (![0, 0] : Fin 2 → Nat) = fun _ => 0 := funext fun a => by fin_cases a <;> rfl
theorem hz1 : (![0] : Fin 1 → Nat) = fun _ => 0 := funext fun a => by fin_cases a <;> rfl

/-- What grid point t writes back is block t of the result. -/
theorem flushed_eq (c : Dev nD) (t : Fin cfg0.N) :
    (dats m 0 c).flushed 3 t = ((cfg0.win 3).blk t).view.read (Elt Ideal) (result m c) := by
  rw [flushed3]
  unfold out0_3
  rw [View.canon_unit_zero hz2]
  simp only [View.ld_unit_zero (S := S1024x512) hz2, View.ld_unit_zero (S := S1000x512) hz2, View.ld_unit_zero (S := S512) hz1]
  rw [centroids_block m c t, temperature_block m c t]
  obtain ⟨-, -, -, -, -, e0, e1⟩ := block_indices t
  funext j
  refine entry_eq (points m c) (centroids m c) (temperature m c) (iblk m c 0 t) t.val
    (fun p d r hr => points_block m c t p d r hr) j (((cfg0.win 3).blk t).view.emb j) ?_ ?_
  · show win0_3.index t (0 : Fin 2) * 1024 + 1 * (j 0).val = t.val * 1024 + (j 0).val
    rw [e0]; omega
  · show win0_3.index t (1 : Fin 2) * 1000 + 1 * (j 1).val = (j 1).val
    rw [e1]; omega

/-- An index of the result array is in point t's block iff each coordinate is in the block's range. -/
theorem mem_block (t : Fin cfg0.N) (i : S16384x1000.Idx) :
    i ∈ ((cfg0.win 3).blk t).view.set ↔ ∀ a : Fin 2, win0_3.index t a * S1024x1000.size a ≤ (i a).val
      ∧ (i a).val < win0_3.index t a * S1024x1000.size a + S1024x1000.size a := by
  show i ∈ ((View.whole main_v0).slice (win0_3.rect t)).set ↔ _
  rw [View.set_slice_whole, Rect.mem_set_unit]
  exact Iff.rfl

/-- Row r of the result lies in the block of grid point r / 1024: the sixteen blocks tile the array. -/
theorem covered (i : S16384x1000.Idx) : ∃ t : Fin cfg0.N, (cfg0.win 3).flush t = true ∧ i ∈ ((cfg0.win 3).blk t).view.set := by
  have hN : cfg0.N = 16 := N_0
  have hi0 : (i 0).val < 16384 := (i 0).isLt
  have hi1 : (i 1).val < 1000 := (i 1).isLt
  refine ⟨⟨(i 0).val / 1024, by rw [hN]; omega⟩, flush0_3 _, ?_⟩
  obtain ⟨-, -, -, -, -, e0, e1⟩ := block_indices ⟨(i 0).val / 1024, by rw [hN]; omega⟩
  rw [mem_block]
  intro a
  match a with
  | ⟨0, _⟩ =>
    show win0_3.index ⟨(i 0).val / 1024, _⟩ (0 : Fin 2) * 1024 ≤ (i 0).val
      ∧ (i 0).val < win0_3.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win0_3.index ⟨(i 0).val / 1024, _⟩ (1 : Fin 2) * 1000 ≤ (i 1).val
      ∧ (i 1).val < win0_3.index ⟨(i 0).val / 1024, _⟩ (1 : Fin 2) * 1000 + 1000
    rw [e1]; omega

/-- After the run the result array is `Dist.result` of the argument arrays. -/
theorem final (c : Dev nD) : (dats m 0 c).arrAt 3 cfg0.N = result m c :=
  (dats m 0 c).arrAt_eq_of_cover 3 (result m c) (fun t _ => flushed_eq m c t) covered

/-- The kernel's run, read: the result array at `Dist.result` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.KernelIdeal.Whole

end
-- ==== Proof.lean ====
/-
  The certificate of the nearest-centroid distance kernel against its jnp reference.

  Both programs compute, for every point b and centroid k, minus half the distance between the point and the
  centroid after both are divided coordinate by coordinate by a temperature row: the squared distance is spelt by
  its expansion ‖x'‖² − 2⟨x', c'⟩ + ‖c'‖², clamped at zero, and rooted (`Dist.result`, Proof/Dist.lean). The reference
  does so on the whole arrays (Proof/RefIsDist.lean); the kernel on sixteen blocks of 1024 points, with the
  inner products taken on the matrix unit after a change of float format that is the identity on extended
  reals (Proof/Body.lean for one block, Proof/Whole.lean for the array). The last step is spelt "negate, divide
  by two" by one and "subtract from zero, multiply by one half" by the other; they agree at every extended real,
  so no finiteness of the inputs is used. The kernel's idealization rewrote nothing, so `preserves` is trivial.
-/
import proofs.«107545_j83270825935352_1_alg».proof.Defs
import proofs.«107545_j83270825935352_1_alg».proof.Proof.Gen.Kernel
import proofs.«107545_j83270825935352_1_alg».proof.Proof.Gen.Kernel.Skeleton
import proofs.«107545_j83270825935352_1_alg».proof.Proof.Gen.Kernel.Launch
import proofs.«107545_j83270825935352_1_alg».proof.Proof.Gen.Kernel.Points
import proofs.«107545_j83270825935352_1_alg».proof.Proof.Gen.Kernel.Frame
import proofs.«107545_j83270825935352_1_alg».proof.Proof.Gen.KernelIdeal
import proofs.«107545_j83270825935352_1_alg».proof.Proof.Gen.KernelIdeal.Skeleton
import proofs.«107545_j83270825935352_1_alg».proof.Proof.Gen.KernelIdeal.Launch
import proofs.«107545_j83270825935352_1_alg».proof.Proof.Gen.KernelIdeal.Points
import proofs.«107545_j83270825935352_1_alg».proof.Proof.Gen.KernelIdeal.Frame
import proofs.«107545_j83270825935352_1_alg».proof.Proof.Gen.ReferenceIdeal
import proofs.«107545_j83270825935352_1_alg».proof.Proof.Gen.Pre_finite_inputs
import proofs.«107545_j83270825935352_1_alg».proof.Proof.Gen.KernelIdeal.Value
import proofs.«107545_j83270825935352_1_alg».proof.Proof.Gen.ReferenceIdeal.Run
import proofs.«107545_j83270825935352_1_alg».proof.Proof.Gen.ReferenceIdeal.Read
import proofs.«107545_j83270825935352_1_alg».proof.Proof.RefIsDist
import proofs.«107545_j83270825935352_1_alg».proof.Proof.Whole
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `Dist.result` of them. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq,
    (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
